-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S8192x2048, .f32⟩
  | .hbm, ⟨10, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S4x2048x8192 : Shape := ⟨3, ![4, 2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S4x2048x8192, .f32⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S_, .f32⟩
  | .hbm, ⟨9, _⟩ => ⟨S4x2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Pieces.lean ====
/-
  What one run of the kernel body leaves behind, case by case.

  At the first hidden tile of a row block the body zeroes the accumulator, reads the zero back and stores
  zero-plus-this-tile's-product; at a middle tile it stores accumulator-plus-product; at the last tile it does the same
  and then copies the accumulator into the output block. In every case the accumulator ends at ONE whole-block store,
  so what it holds is that store's value.
-/
import proofs.«121263_j5214090297425_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- First tile: the accumulator ends at the tile's product added to the zero block just stored. -/
theorem acc_first (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (x0 : Vec F S512x2048 .bf16) (x1 : Vec F S512x2048 .bf16) (x2 : Vec F S512x2048 .bf16) (x3 : Vec F S2048x512 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread,
    View.ld_unit_zero (S := S512x2048) hz, View.ld_unit_zero (S := S2048x512) hz]

/-- Middle tile: the accumulator ends at the tile's product added to what it held. -/
theorem acc_middle (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (x0 : Vec F S512x2048 .bf16) (x1 : Vec F S512x2048 .bf16) (x2 : Vec F S512x2048 .bf16) (x3 : Vec F S2048x512 .bf16) (xs0 : Vec F S512x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread,
    harg7.read_unread, View.ld_unit_zero (S := S512x2048) hz, View.ld_unit_zero (S := S2048x512) hz]

/-- Last tile: the accumulator ends at the tile's product added to what it held … -/
theorem acc_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S512x2048 .bf16) (x2 : Vec F S512x2048 .bf16) (x3 : Vec F S2048x512 .bf16) (xs0 : Vec F S512x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S512x2048) hz, View.ld_unit_zero (S := S2048x512) hz]

/-- … and the output block is a copy of it. -/
theorem out_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S512x2048 .bf16) (x2 : Vec F S512x2048 .bf16) (x3 : Vec F S2048x512 .bf16) (xs0 : Vec F S512x2048 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread,
    harg7.read_unread, View.ld_unit_zero (S := S512x2048) hz, View.ld_unit_zero (S := S2048x512) hz]

end Cert.KernelIdeal.Pieces

end
-- ==== Proof.Steps.lean ====
/-
  The accumulator from one grid point to the next.

  Within a row block the sixteen hidden tiles are visited in order. At the first the accumulator becomes the tile's
  product added to a zero block; at every later one it becomes the tile's product added to what the point before left.
  At the sixteenth the output block is a copy of the accumulator. Here "the tile's product added to `a`" is the body's
  one store value, as a function of the four input blocks at the point and of `a`.
-/
import proofs.«121263_j5214090297425_1_alg».proof.Proof.Pieces

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The four input blocks at a point, at their literal shapes. -/
abbrev xblk (c : Dev nD) (t : Fin cfg0.N) : Vec F S512x2048 .bf16 := iblk m c 0 t
abbrev gblk (c : Dev nD) (t : Fin cfg0.N) : Vec F S512x2048 .bf16 := iblk m c 1 t
abbrev ublk (c : Dev nD) (t : Fin cfg0.N) : Vec F S512x2048 .bf16 := iblk m c 2 t
abbrev dblk (c : Dev nD) (t : Fin cfg0.N) : Vec F S2048x512 .bf16 := iblk m c 3 t

/-- The accumulator, and the output block, after the body at position `n`. -/
abbrev accAt (c : Dev nD) (n : Nat) (hn : n < cfg0.N) : Vec F S512x2048 .f32 := (outsAt0 m c n hn).2
abbrev outAt (c : Dev nD) (n : Nat) (hn : n < cfg0.N) : Vec F S512x2048 .f32 := (outsAt0 m c n hn).1

/-- At a row block's first tile the accumulator restarts from zero. -/
theorem acc_at_first (c : Dev nD) (t : Fin cfg0.N) (h0 : t.val % 16 = 0) :
    accAt m c t.val t.isLt = k0_pay2 (xblk m c t) (gblk m c t) (ublk m c t) (dblk m c t) (k0_pay1 (F := F)) := by
  have h1 : ¬t.val % 16 = 15 := by omega
  show (outsAt0 m c t.val t.isLt).2 = _
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every later tile it continues from what the point before left. -/
theorem acc_at_next (c : Dev nD) (t : Fin cfg0.N) (h0 : ¬t.val % 16 = 0) :
    accAt m c t.val t.isLt = k0_pay2 (xblk m c t) (gblk m c t) (ublk m c t) (dblk m c t)
      (accAt m c (t.val - 1) (Nat.lt_of_le_of_lt (Nat.sub_le _ _) t.isLt)) := by
  show (outsAt0 m c t.val t.isLt).2 = _
  by_cases h1 : t.val % 16 = 15
  · rw [outsAt0_C m c t h0 h1]
    dsimp only
    exact Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the sixteenth tile the output block is the accumulator. -/
theorem out_at_last (c : Dev nD) (t : Fin cfg0.N) (h1 : t.val % 16 = 15) :
    outAt m c t.val t.isLt = accAt m c t.val t.isLt := by
  have h0 : ¬t.val % 16 = 0 := by omega
  show (outsAt0 m c t.val t.isLt).1 = (outsAt0 m c t.val t.isLt).2
  rw [outsAt0_C m c t h0 h1]
  dsimp only
  exact (Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

end Cert.KernelIdeal.Steps

end
-- ==== Proof.Blocks.lean ====
/-
  Where the kernel's blocks sit in the arrays.

  The grid is 16 row blocks × 16 hidden tiles; point `t` is row block `t / 16`, hidden tile `t % 16`. There the input
  block is rows `512·(t/16) … +511` of the flattened input, the gate and up blocks are rows `512·(t%16) … +511` of their
  matrices, and the output-matrix block is columns `512·(t%16) … +511`. The flattened input is the batch reshaped
  row-major (row `r` is batch `r / 2048`, position `r % 2048`); the conversions to the narrow float format change
  nothing over the extended reals, and are carried along unopened for any float instance.
-/
import proofs.«121263_j5214090297425_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Idealize.ShloMosaic Idealize.ShloMosaic.TcCoe Idealize.ShloMosaic.Tactic Idealize.SL.Sem
open Idealize.ShloMosaic.ValueIdx Idealize.ShloMosaic.StableHlo
open Cert.KernelIdeal Cert.KernelIdeal.Gen

variable {F : FTy → Type} [FloatOps F]
variable (m : (ℓ : Loc nD τ sig) → Buf (Elt F) ℓ)

/-! ## The arrays the call reads, as functions of the program's arguments -/

/-- The flattened input: the batch reshaped to 8192 rows, converted. -/
theorem arr_x (c : Dev nD) : (V m c main_v1 : Vec F S8192x2048 .bf16)
    = truncf .bf16 (shapeCast S8192x2048 (m ((c : Thread nD τ).loc main_arg0)) shapeCasts_S4x2048x2048_S8192x2048) bitsLt_bf16_f32 := by
  show StableHlo.after hostOps0 (fun b => m (c, b)) (Proc.devRef .tc main_v1) = _
  after_results
  rfl

/-- The gate matrix, converted. -/
theorem arr_wg (c : Dev nD) : (V m c main_v2 : Vec F S8192x2048 .bf16)
    = truncf .bf16 (m ((c : Thread nD τ).loc main_arg1)) bitsLt_bf16_f32 := by
  show StableHlo.after hostOps0 (fun b => m (c, b)) (Proc.devRef .tc main_v2) = _
  after_results

/-- The up matrix, converted. -/
theorem arr_wu (c : Dev nD) : (V m c main_v3 : Vec F S8192x2048 .bf16)
    = truncf .bf16 (m ((c : Thread nD τ).loc main_arg2)) bitsLt_bf16_f32 := by
  show StableHlo.after hostOps0 (fun b => m (c, b)) (Proc.devRef .tc main_v3) = _
  after_results

/-- The output matrix, converted. -/
theorem arr_wd (c : Dev nD) : (V m c main_v4 : Vec F S2048x8192 .bf16)
    = truncf .bf16 (m ((c : Thread nD τ).loc main_arg3)) bitsLt_bf16_f32 := by
  show StableHlo.after hostOps0 (fun b => m (c, b)) (Proc.devRef .tc main_v4) = _
  after_results

/-! ## The block indices, decided once over the 256 grid points -/

theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-! ## Each input block read at an entry -/

/-- The input block at point `t` holds rows `512·(t/16) + a` of the flattened input. -/
theorem x_block (c : Dev nD) (t : Fin cfg0.N) (a : Fin 512) (b : Fin 2048) (r : Fin 8192) (hr : r.val = 512 * (t.val / 16) + a.val) :
    (iblk m c 0 t : Vec F S512x2048 .bf16) (ix2 a b) = (V m c main_v1 : Vec F S8192x2048 .bf16) (ix2 r b) := by
  unfold iblk
  rw [View.read_apply]
  show V m c main_v1 _ = V m c main_v1 _
  congr 1
  funext ax
  apply Fin.ext
  match ax with
  | ⟨0, _⟩ => show win0_0.index t 0 * 512 + 1 * a.val = r.val; rw [(idx_facts t).1]; omega
  | ⟨1, _⟩ => show win0_0.index t 1 * 2048 + 1 * b.val = b.val; rw [(idx_facts t).2.1]; omega

/-- The gate block at point `t` holds rows `512·(t%16) + a` of the gate matrix. -/
theorem wg_block (c : Dev nD) (t : Fin cfg0.N) (a : Fin 512) (b : Fin 2048) (h : Fin 8192) (hh : h.val = 512 * (t.val % 16) + a.val) :
    (iblk m c 1 t : Vec F S512x2048 .bf16) (ix2 a b) = (V m c main_v2 : Vec F S8192x2048 .bf16) (ix2 h b) := by
  unfold iblk
  rw [View.read_apply]
  show V m c main_v2 _ = V m c main_v2 _
  congr 1
  funext ax
  apply Fin.ext
  match ax with
  | ⟨0, _⟩ => show win0_1.index t 0 * 512 + 1 * a.val = h.val; rw [(idx_facts t).2.2.1]; omega
  | ⟨1, _⟩ => show win0_1.index t 1 * 2048 + 1 * b.val = b.val; rw [(idx_facts t).2.2.2.1]; omega

/-- The up block at point `t` holds rows `512·(t%16) + a` of the up matrix. -/
theorem wu_block (c : Dev nD) (t : Fin cfg0.N) (a : Fin 512) (b : Fin 2048) (h : Fin 8192) (hh : h.val = 512 * (t.val % 16) + a.val) :
    (iblk m c 2 t : Vec F S512x2048 .bf16) (ix2 a b) = (V m c main_v3 : Vec F S8192x2048 .bf16) (ix2 h b) := by
  unfold iblk
  rw [View.read_apply]
  show V m c main_v3 _ = V m c main_v3 _
  congr 1
  funext ax
  apply Fin.ext
  match ax with
  | ⟨0, _⟩ => show win0_2.index t 0 * 512 + 1 * a.val = h.val; rw [(idx_facts t).2.2.2.2.1]; omega
  | ⟨1, _⟩ => show win0_2.index t 1 * 2048 + 1 * b.val = b.val; rw [(idx_facts t).2.2.2.2.2.1]; omega

/-- The output-matrix block at point `t` holds columns `512·(t%16) + b` of the output matrix. -/
theorem wd_block (c : Dev nD) (t : Fin cfg0.N) (a : Fin 2048) (b : Fin 512) (h : Fin 8192) (hh : h.val = 512 * (t.val % 16) + b.val) :
    (iblk m c 3 t : Vec F S2048x512 .bf16) (ix2 a b) = (V m c main_v4 : Vec F S2048x8192 .bf16) (ix2 a h) := by
  unfold iblk
  rw [View.read_apply]
  show V m c main_v4 _ = V m c main_v4 _
  congr 1
  funext ax
  apply Fin.ext
  match ax with
  | ⟨0, _⟩ => show win0_3.index t 0 * 2048 + 1 * a.val = a.val; rw [(idx_facts t).2.2.2.2.2.2.1]; omega
  | ⟨1, _⟩ => show win0_3.index t 1 * 512 + 1 * b.val = h.val; rw [(idx_facts t).2.2.2.2.2.2.2.1]; omega

/-! ## The arrays' entries over the extended reals -/

section AtIdeal

variable (mI : (ℓ : Loc nD τ sig) → Buf (Elt Ideal) ℓ)

/-- Row `r` of the flattened input is batch `b`, position `s` when `r = 2048·b + s`: the same row-major place. -/
theorem x_entry (c : Dev nD) (r : Fin 8192) (k : Fin 2048) (b : Fin 4) (s : Fin 2048) (hr : r.val = 2048 * b.val + s.val) :
    (V mI c main_v1 : FVec Ideal S8192x2048 .bf16) (ix2 r k) = mI ((c : Thread nD τ).loc main_arg0) (ix3 b s k) := by
  rw [arr_x]
  show shapeCast S8192x2048 (mI ((c : Thread nD τ).loc main_arg0)) shapeCasts_S4x2048x2048_S8192x2048 (ix2 r k) = _
  refine shapeCast_apply _ _ _ _ ?_
  show ((⟨3, ![4, 2048, 2048]⟩ : Shape).rowMajor (ix3 b s k)).val = ((⟨2, ![8192, 2048]⟩ : Shape).rowMajor (ix2 r k)).val
  rw [Shape.rowMajor_val_three, Shape.rowMajor_val_two]
  show (b.val * 2048 + s.val) * 2048 + k.val = r.val * 2048 + k.val
  rw [hr]; ring

theorem wg_entry (c : Dev nD) (i : S8192x2048.Idx) :
    (V mI c main_v2 : FVec Ideal S8192x2048 .bf16) i = mI ((c : Thread nD τ).loc main_arg1) i := by
  rw [arr_wg]; rfl

theorem wu_entry (c : Dev nD) (i : S8192x2048.Idx) :
    (V mI c main_v3 : FVec Ideal S8192x2048 .bf16) i = mI ((c : Thread nD τ).loc main_arg2) i := by
  rw [arr_wu]; rfl

theorem wd_entry (c : Dev nD) (i : S2048x8192.Idx) :
    (V mI c main_v4 : FVec Ideal S2048x8192 .bf16) i = mI ((c : Thread nD τ).loc main_arg3) i := by
  rw [arr_wd]; rfl

end AtIdeal

end Cert.KernelIdeal.Blocks

end
-- ==== Proof.Spec.lean ====
/-
  The gated two-layer perceptron as one function of its four arrays, over the extended reals.

  For a row `xr` of the input (2048 features), hidden unit `h` has gate pre-activation `g = ∑ₖ xr k · Wg[h,k]`, up
  pre-activation `u = ∑ₖ xr k · Wu[h,k]`, and contributes `(g · σ(g) · u) · Wd[d,h]` to output feature `d`, where
  `σ(g) = 1 / (1 + e^(-g))`. The output is the sum of the 8192 contributions. Summing them 512 at a time, tile after
  tile, gives the same total: addition of extended reals is commutative and associative, so a sum over `range (512·(j+1))`
  is the sum over `range (512·j)` plus the next 512 terms. No finiteness is needed anywhere.
-/
import Idealize.ShloMosaic.PureOps.Ideal
import Idealize.ShloMosaic.Lib.ValueIdx

noncomputable section

namespace Cert.GatedMlp

open Idealize.ShloMosaic Idealize.ShloMosaic.ValueIdx

/-- The gated activation of a hidden unit: `g · σ(g) · u`. -/
def gated (g u : EReal) : EReal := g * Ideal.logistic g * u

/-- Hidden unit `q`'s contribution to output feature `d` of one input row `xr`, for projection matrices with `H`
    rows (`wg`, `wu`: one row per hidden unit) and an output matrix with `H` columns (`wd`: one column per hidden unit). -/
def contrib {H D : Nat} (xr : Fin 2048 → EReal) (wg wu : (⟨2, ![H, 2048]⟩ : Shape).Idx → EReal)
    (wd : (⟨2, ![D, H]⟩ : Shape).Idx → EReal) (d : Fin D) (q : Fin H) : EReal :=
  gated (∑ k : Fin 2048, xr k * wg (ix2 q k)) (∑ k : Fin 2048, xr k * wu (ix2 q k)) * wd (ix2 d q)

/-- One input row through the whole perceptron: the sum of all hidden units' contributions. -/
def rowOut {H D : Nat} (xr : Fin 2048 → EReal) (wg wu : (⟨2, ![H, 2048]⟩ : Shape).Idx → EReal)
    (wd : (⟨2, ![D, H]⟩ : Shape).Idx → EReal) (d : Fin D) : EReal :=
  ∑ q : Fin H, contrib xr wg wu wd d q

/-- The perceptron on a batch: entry `(b, s, d)` is row `(b, s)` of `x` pushed through. -/
def mlp (x : (⟨3, ![4, 2048, 2048]⟩ : Shape).Idx → EReal) (wg wu : (⟨2, ![8192, 2048]⟩ : Shape).Idx → EReal)
    (wd : (⟨2, ![2048, 8192]⟩ : Shape).Idx → EReal) : (⟨3, ![4, 2048, 2048]⟩ : Shape).Idx → EReal :=
  fun i => rowOut (fun k => x (ix3 (i 0) (i 1) k)) wg wu wd (i 2)

/-- A function on `Fin n` continued by zero to all naturals, so that partial sums can be taken over `Finset.range`. -/
def ext0 {n : Nat} (f : Fin n → EReal) (h : Nat) : EReal := if hh : h < n then f ⟨h, hh⟩ else 0

theorem ext0_of_lt {n : Nat} (f : Fin n → EReal) (h : Nat) (hh : h < n) : ext0 f h = f ⟨h, hh⟩ := dif_pos hh

/-- The sum over the whole range is the sum over `Fin n`. -/
theorem sum_range_ext0 {n : Nat} (f : Fin n → EReal) : ∑ h ∈ Finset.range n, ext0 f h = ∑ h : Fin n, f h := by
  rw [← Fin.sum_univ_eq_sum_range]
  exact Finset.sum_congr rfl fun h _ => dif_pos h.isLt

/-- One more tile of 512 terms: the partial sum up to `512·j` plus terms `512·j … 512·j + 511` is the partial sum up
    to `512·(j+1)`. -/
theorem tile_step (T : Nat → EReal) (j : Nat) :
    (∑ h ∈ Finset.range (512 * j), T h) + ∑ q : Fin 512, T (512 * j + q.val) = ∑ h ∈ Finset.range (512 * (j + 1)), T h := by
  rw [Nat.mul_succ, Finset.sum_range_add, Fin.sum_univ_eq_sum_range (fun q => T (512 * j + q))]

/-- The first tile alone, after the accumulator was zeroed. -/
theorem tile_first (T : Nat → EReal) : (0 : EReal) + ∑ q : Fin 512, T q.val = ∑ h ∈ Finset.range (512 * (0 + 1)), T h := by
  rw [zero_add, Fin.sum_univ_eq_sum_range (fun q => T q)]

/-- A tile's 512 contributions are terms `512·j … 512·j + 511` of the whole list of 8192, when the tile's matrices
    hold rows (for the output matrix: columns) `512·j + q` of the whole matrices. -/
theorem rowOut_tile (xr : Fin 2048 → EReal) (WG WU : (⟨2, ![8192, 2048]⟩ : Shape).Idx → EReal)
    (WD : (⟨2, ![2048, 8192]⟩ : Shape).Idx → EReal)
    (wg wu : (⟨2, ![512, 2048]⟩ : Shape).Idx → EReal) (wd : (⟨2, ![2048, 512]⟩ : Shape).Idx → EReal)
    (j : Nat) (hj : j < 16)
    (hg : ∀ (q : Fin 512) (k : Fin 2048) (h : Fin 8192), h.val = 512 * j + q.val → wg (ix2 q k) = WG (ix2 h k))
    (hu : ∀ (q : Fin 512) (k : Fin 2048) (h : Fin 8192), h.val = 512 * j + q.val → wu (ix2 q k) = WU (ix2 h k))
    (hd : ∀ (d : Fin 2048) (q : Fin 512) (h : Fin 8192), h.val = 512 * j + q.val → wd (ix2 d q) = WD (ix2 d h))
    (d : Fin 2048) :
    rowOut xr wg wu wd d = ∑ q : Fin 512, ext0 (contrib xr WG WU WD d) (512 * j + q.val) := by
  unfold rowOut
  refine Finset.sum_congr rfl fun q _ => ?_
  have hlt : 512 * j + q.val < 8192 := by have := q.isLt; omega
  rw [ext0_of_lt _ _ hlt]
  unfold contrib
  have eg : (∑ k : Fin 2048, xr k * wg (ix2 q k)) = ∑ k : Fin 2048, xr k * WG (ix2 ⟨512 * j + q.val, hlt⟩ k) :=
    Finset.sum_congr rfl fun k _ => by rw [hg q k ⟨_, hlt⟩ rfl]
  have eu : (∑ k : Fin 2048, xr k * wu (ix2 q k)) = ∑ k : Fin 2048, xr k * WU (ix2 ⟨512 * j + q.val, hlt⟩ k) :=
    Finset.sum_congr rfl fun k _ => by rw [hu q k ⟨_, hlt⟩ rfl]
  rw [eg, eu, hd d q ⟨_, hlt⟩ rfl]

end Cert.GatedMlp

end
-- ==== Proof.Payload.lean ====
/-
  The kernel body's arithmetic at one entry of the accumulator block.

  At a grid point the body holds a block of 512 input rows `x0`, 512 rows of the gate and up matrices `x1`, `x2`,
  the matching 512 columns of the output matrix `x3`, and the accumulator `xs`. It stores back
  `xs + (silu(x0 · x1ᵀ) ⊙ (x0 · x2ᵀ)) · x3ᵀ`: at entry `(p, d)` that is `xs[p, d]` plus the 512 hidden units'
  contributions of row `p` to feature `d`. Changes of float format are the identity over the extended reals.

  Each of the three products contracts the LAST axis of both of its operands into a zero accumulator, so its entry
  `(i, j)` is `∑ₖ lhs[i, k] · rhs[j, k]`: the left operand is read at (output row, k), the right at (output column, k),
  and the one-axis contraction index is re-indexed by its single coordinate `k`.
-/
import proofs.«121263_j5214090297425_1_alg».proof.Proof.Gen.KernelIdeal.Skeleton
import proofs.«121263_j5214090297425_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen

/-! ## The projections `x0 · x1ᵀ`, `x0 · x2ᵀ`: 512 rows by 512 hidden units, contracting the 2048 features -/

/-- Left operand, axis 0: a free axis, it carries the output's row. -/
theorem lhs_gate_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- Left operand, axis 1: the contracted axis, it carries the contraction coordinate. -/
theorem lhs_gate_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- Right operand, axis 0: a free axis, it carries the output's column. -/
theorem rhs_gate_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- Right operand, axis 1: the contracted axis, it carries the contraction coordinate. -/
theorem rhs_gate_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry `(p, q)` of a projection: row `p` of the left block against row `q` of the right, over the 2048 features. -/
theorem gate_apply (a : FVec Ideal S512x2048 .bf16) (b : FVec Ideal S512x2048 .bf16) (p : Fin 512) (q : Fin 512) :
    matmul dot_S512x2048_S512x2048_S512x512_1_1_0_0_n_n none a b (constant (F := Ideal) S512x512 .f32 0x00000000#32) (ix2 p q)
      = ∑ k : Fin 2048, a (ix2 p k) * b (ix2 q k) := by
  simp only [matmul]
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p q) ((ValueIdx.contrEquiv1 dot_S512x2048_S512x2048_S512x512_1_1_0_0_n_n 2048 rfl rfl).symm k) = ix2 p k := funext fun c => Fin.ext (by
    match c with
    | ⟨0, _⟩ => exact lhs_gate_0 _ _
    | ⟨1, _⟩ => exact (lhs_gate_1 _ _).trans hk)
  have er : dot_S512x2048_S512x2048_S512x512_1_1_0_0_n_n.rhsIdx (ix2 p q) ((ValueIdx.contrEquiv1 dot_S512x2048_S512x2048_S512x512_1_1_0_0_n_n 2048 rfl rfl).symm k) = ix2 q k := funext fun c => Fin.ext (by
    match c with
    | ⟨0, _⟩ => exact rhs_gate_0 _ _
    | ⟨1, _⟩ => exact (rhs_gate_1 _ _).trans hk)
  rw [el, er]

/-! ## The output product `y · x3ᵀ`: 512 rows by 2048 features, contracting the 512 hidden units -/

/-- Left operand, axis 0: a free axis, it carries the output's row. -/
theorem lhs_down_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- Left operand, axis 1: the contracted axis, it carries the contraction coordinate. -/
theorem lhs_down_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- Right operand, axis 0: a free axis, it carries the output's column. -/
theorem rhs_down_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- Right operand, axis 1: the contracted axis, it carries the contraction coordinate. -/
theorem rhs_down_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry `(p, d)` of the output product: row `p` of the activations against row `d` of the output block, over the 512 hidden units. -/
theorem down_apply (a : FVec Ideal S512x512 .bf16) (b : FVec Ideal S2048x512 .bf16) (p : Fin 512) (q : Fin 2048) :
    matmul dot_S512x512_S2048x512_S512x2048_1_1_0_0_n_n none a b (constant (F := Ideal) S512x2048 .f32 0x00000000#32) (ix2 p q)
      = ∑ k : Fin 512, a (ix2 p k) * b (ix2 q k) := by
  simp only [matmul]
  rw [Ideal.matmul_constant_zero_apply, ← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p q) ((ValueIdx.contrEquiv1 dot_S512x512_S2048x512_S512x2048_1_1_0_0_n_n 512 rfl rfl).symm k) = ix2 p k := funext fun c => Fin.ext (by
    match c with
    | ⟨0, _⟩ => exact lhs_down_0 _ _
    | ⟨1, _⟩ => exact (lhs_down_1 _ _).trans hk)
  have er : dot_S512x512_S2048x512_S512x2048_1_1_0_0_n_n.rhsIdx (ix2 p q) ((ValueIdx.contrEquiv1 dot_S512x512_S2048x512_S512x2048_1_1_0_0_n_n 512 rfl rfl).symm k) = ix2 q k := funext fun c => Fin.ext (by
    match c with
    | ⟨0, _⟩ => exact rhs_down_0 _ _
    | ⟨1, _⟩ => exact (rhs_down_1 _ _).trans hk)
  rw [el, er]

/-- The block the reset stores is zero everywhere. -/
theorem pay1_apply (j : S512x2048.Idx) : k0_pay1 (F := Ideal) j = 0 := by
  unfold k0_pay1
  rw [shapeCast_self]
  exact Ideal.ofBits_zero_f32

/-- The accumulating store's value at entry `(p, d)`. -/
theorem pay2_apply (x0 x1 x2 : FVec Ideal S512x2048 .bf16) (x3 : FVec Ideal S2048x512 .bf16)
    (xs : FVec Ideal S512x2048 .f32) (p : Fin 512) (d : Fin 2048) :
    k0_pay2 (F := Ideal) x0 x1 x2 x3 xs (ix2 p d)
      = xs (ix2 p d) + Cert.GatedMlp.rowOut (fun k => x0 (ix2 p k)) x1 x2 x3 d := by
  unfold k0_pay2
  -- a cast of a block to its own shape is that block
  simp only [shapeCast_self]
  -- entry (p, d) is xs[p, d] plus the output product's entry, a sum over the 512 hidden units q
  rw [addf_apply, down_apply]
  refine congrArg (xs (ix2 p d) + ·) ?_
  -- the row's output is the sum of the same 512 contributions: compare them unit by unit
  unfold Cert.GatedMlp.rowOut
  refine Finset.sum_congr rfl fun q _ => ?_
  -- the activations' entry (p, q): narrowing is the identity, the two products are entrywise, …
  rw [truncf_apply, mulf_apply, mulf_apply]
  -- … and so is the logistic function
  show _ * FloatOps.logistic (matmul _ none x0 x1 _ (ix2 p q)) * _ * _ = _
  -- g = ∑ₖ x0[p, k] · x1[q, k] and u = ∑ₖ x0[p, k] · x2[q, k]
  rw [gate_apply, gate_apply, Ideal.logistic_def]
  -- both sides are (g · σ(g) · u) · x3[d, q]
  unfold Cert.GatedMlp.contrib Cert.GatedMlp.gated
  rfl

end Cert.KernelIdeal.Payload

end
-- ==== Proof.Invariant.lean ====
/-
  The accumulator is a partial sum.

  Fix a row `r` of the flattened input and an output feature `d`, and list the 8192 hidden units' contributions of
  that row to that feature. After the body at grid point `n` (row block `n / 16`, tile `n % 16`) the accumulator's
  entry for `(r, d)` is the sum of the first `512·(n % 16 + 1)` contributions: the first tile puts the first 512 on top
  of zero, and each later tile adds the next 512 to what the point before left. The proof is an induction on the point;
  the only law used is that a sum over `range (a + b)` splits at `a`.
-/
import proofs.«121263_j5214090297425_1_alg».proof.Proof.Steps
import proofs.«121263_j5214090297425_1_alg».proof.Proof.Blocks
import proofs.«121263_j5214090297425_1_alg».proof.Proof.Payload
import proofs.«121263_j5214090297425_1_alg».proof.Proof.Spec

noncomputable section

namespace Cert.KernelIdeal.Invariant

open Idealize.ShloMosaic Idealize.ShloMosaic.TcCoe Idealize.SL.Sem Idealize.ShloMosaic.ValueIdx
open Cert.KernelIdeal Cert.KernelIdeal.Gen Cert.GatedMlp

variable (m : (ℓ : Loc nD τ sig) → Buf (Elt Ideal) ℓ)

/-- The four arrays the call reads, at their literal types. -/
abbrev X (c : Dev nD) : FVec Ideal S8192x2048 .bf16 := V m c main_v1
abbrev WG (c : Dev nD) : FVec Ideal S8192x2048 .bf16 := V m c main_v2
abbrev WU (c : Dev nD) : FVec Ideal S8192x2048 .bf16 := V m c main_v3
abbrev WD (c : Dev nD) : FVec Ideal S2048x8192 .bf16 := V m c main_v4

/-- Row `r`'s contributions to feature `d`, one per hidden unit, as a list over the naturals (zero past the end). -/
def terms (c : Dev nD) (r : Fin 8192) (d : Fin 2048) : Nat → EReal :=
  ext0 (contrib (fun k => X m c (ix2 r k)) (WG m c) (WU m c) (WD m c) d)

/-- The tile's product at a point, for row `p` of the row block: contributions `512·(t % 16) … + 511` of that row. -/
theorem tile_product (c : Dev nD) (t : Fin cfg0.N) (p : Fin 512) (d : Fin 2048) (r : Fin 8192)
    (hr : r.val = 512 * (t.val / 16) + p.val) :
    rowOut (fun k => Steps.xblk m c t (ix2 p k)) (Steps.gblk m c t) (Steps.ublk m c t) (Steps.dblk m c t) d
      = ∑ q : Fin 512, terms m c r d (512 * (t.val % 16) + q.val) := by
  have hx : (fun k => Steps.xblk m c t (ix2 p k)) = fun k => X m c (ix2 r k) :=
    funext fun k => Blocks.x_block m c t p k r hr
  rw [hx]
  exact rowOut_tile _ (WG m c) (WU m c) (WD m c) (Steps.gblk m c t) (Steps.ublk m c t) (Steps.dblk m c t)
    (t.val % 16) (Nat.mod_lt _ (by norm_num))
    (fun q k h hh => Blocks.wg_block m c t q k h hh) (fun q k h hh => Blocks.wu_block m c t q k h hh)
    (fun d' q h hh => Blocks.wd_block m c t d' q h hh) d

/-- At a row block's first tile: zero plus the first 512 contributions. -/
theorem acc_first_closed (c : Dev nD) (t : Fin cfg0.N) (h0 : t.val % 16 = 0) (p : Fin 512) (d : Fin 2048) (r : Fin 8192)
    (hr : r.val = 512 * (t.val / 16) + p.val) :
    Steps.accAt m c t.val t.isLt (ix2 p d) = ∑ h ∈ Finset.range (512 * (t.val % 16 + 1)), terms m c r d h := by
  refine (congrFun (Steps.acc_at_first m c t h0) (ix2 p d)).trans ?_
  refine (Payload.pay2_apply (Steps.xblk m c t) (Steps.gblk m c t) (Steps.ublk m c t) (Steps.dblk m c t) _ p d).trans ?_
  rw [Payload.pay1_apply, tile_product m c t p d r hr, ← tile_step]
  have hz : (∑ h ∈ Finset.range (512 * (t.val % 16)), terms m c r d h) = 0 := by
    rw [h0, Nat.mul_zero, Finset.range_zero, Finset.sum_empty]
  rw [hz]

/-- At a later tile: what the point before left plus the next 512 contributions. -/
theorem acc_next_closed (c : Dev nD) (t : Fin cfg0.N) (h0 : ¬t.val % 16 = 0) (p : Fin 512) (d : Fin 2048) (r : Fin 8192)
    (hr : r.val = 512 * (t.val / 16) + p.val)
    (ih : Steps.accAt m c (t.val - 1) (Nat.lt_of_le_of_lt (Nat.sub_le _ _) t.isLt) (ix2 p d)
      = ∑ h ∈ Finset.range (512 * (t.val % 16)), terms m c r d h) :
    Steps.accAt m c t.val t.isLt (ix2 p d) = ∑ h ∈ Finset.range (512 * (t.val % 16 + 1)), terms m c r d h := by
  refine (congrFun (Steps.acc_at_next m c t h0) (ix2 p d)).trans ?_
  refine (Payload.pay2_apply (Steps.xblk m c t) (Steps.gblk m c t) (Steps.ublk m c t) (Steps.dblk m c t) _ p d).trans ?_
  rw [ih, tile_product m c t p d r hr]
  exact tile_step _ _

/-- After the body at point `n` the accumulator holds the first `512·(n % 16 + 1)` contributions' sum. -/
theorem acc_closed (c : Dev nD) : ∀ (n : Nat) (hn : n < cfg0.N) (p : Fin 512) (d : Fin 2048) (r : Fin 8192),
    r.val = 512 * (n / 16) + p.val →
    Steps.accAt m c n hn (ix2 p d) = ∑ h ∈ Finset.range (512 * (n % 16 + 1)), terms m c r d h
  | 0, hn, p, d, r, hr => acc_first_closed m c ⟨0, hn⟩ (Nat.zero_mod _) p d r hr
  | n + 1, hn, p, d, r, hr => by
    by_cases h0 : (n + 1) % 16 = 0
    · exact acc_first_closed m c ⟨n + 1, hn⟩ h0 p d r hr
    · have ih := acc_closed c n (Nat.lt_of_succ_lt hn) p d r (by omega)
      have e : n % 16 + 1 = (n + 1) % 16 := by omega
      rw [e] at ih
      exact acc_next_closed m c ⟨n + 1, hn⟩ h0 p d r hr ih

/-- At a row block's sixteenth tile the output block holds the row's whole output. -/
theorem out_closed (c : Dev nD) (t : Fin cfg0.N) (h1 : t.val % 16 = 15) (p : Fin 512) (d : Fin 2048) (r : Fin 8192)
    (hr : r.val = 512 * (t.val / 16) + p.val) :
    Steps.outAt m c t.val t.isLt (ix2 p d) = rowOut (fun k => X m c (ix2 r k)) (WG m c) (WU m c) (WD m c) d := by
  rw [Steps.out_at_last m c t h1, acc_closed m c t.val t.isLt p d r hr, h1]
  exact sum_range_ext0 _

end Cert.KernelIdeal.Invariant

end
-- ==== Proof.Result.lean ====
/-
  The result array.

  The output window is written back once per row block, after the sixteenth tile, and then its block holds the whole
  output of rows `512·(t/16) … + 511`. The sixteen write-backs tile the 8192 × 2048 array, so after the run the array is
  the perceptron's output for the flattened input, row by row. The trailing reshape puts row `2048·b + s` at batch `b`,
  position `s`, which is where the flattening took it from: the result is the perceptron function of the four arguments.
-/
import proofs.«121263_j5214090297425_1_alg».proof.Proof.Invariant
import Idealize.ShloMosaic.Lib.Pipeline.Value
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.GatedMlp Cert.KernelIdeal.Invariant

variable (m : (ℓ : Loc nD τ sig) → Buf (Elt Ideal) ℓ) (ρ : Dev nD → PrngReg)

/-- The call's result array as one function of the arrays it reads: entry `(r, d)` is row `r` pushed through. -/
def rows (c : Dev nD) : Buf (Elt Ideal) ((c : Thread nD τ).loc main_v5) :=
  fun j => rowOut (fun k => X m c (ix2 (j 0) k)) (WG m c) (WU m c) (WD m c) (j 1)

/-- After a row block's sixteenth tile, entry `y` of the output block is entry `i` of `rows` when `i` is row
    `512·(t/16) + y₀`, column `y₁`. -/
theorem out_block (c : Dev nD) (t : Fin cfg0.N) (h1 : t.val % 16 = 15) (y : S512x2048.Idx) (i : S8192x2048.Idx)
    (hi0 : (i 0).val = 512 * (t.val / 16) + (y 0).val) (hi1 : (i 1).val = (y 1).val) :
    Steps.outAt m c t.val t.isLt y = rows m c i := by
  obtain ⟨p, d, rfl⟩ : ∃ (p : Fin 512) (d : Fin 2048), y = ix2 p d := ⟨y 0, y 1, eq_ix2 y⟩
  rw [out_closed m c t h1 p d (i 0) hi0]
  unfold rows
  have e : i 1 = d := Fin.ext hi1
  rw [e]

/-- What a write-back writes is the matching block of `rows`. -/
theorem flushed_eq (c : Dev nD) (t : Fin cfg0.N) (hf : (cfg0.win 4).flush t = true) :
    (dats m 0 c).flushed 4 t = ((cfg0.win 4).blk t).view.read (Elt Ideal) (rows m c) := by
  have h1 : t.val % 16 = 15 := (flush0_4 t).mp hf
  obtain ⟨-, -, -, -, -, -, -, -, e0, e1⟩ := Blocks.idx_facts t
  show (cfg0.win 4).cut (grid0.coords t) ((dats m 0 c).after 4 t) = _
  rw [after0_4]
  funext j
  rw [View.read_apply]
  show Steps.outAt m c t.val t.isLt j = rows m c (((cfg0.win 4).blk t).view.emb j)
  refine out_block m c t h1 j _ ?_ ?_
  · show win0_4.index t (0 : Fin 2) * 512 + 1 * (j 0).val = 512 * (t.val / 16) + (j 0).val
    rw [e0]; omega
  · show win0_4.index t (1 : Fin 2) * 2048 + 1 * (j 1).val = (j 1).val
    rw [e1]; omega

/-- An entry of the array is in point `t`'s block iff each coordinate is in the block's range on its axis. -/
theorem mem_block (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v5).slice (win0_4.rect t)).set ↔ _
  rw [View.set_slice_whole, Rect.mem_set_unit]
  exact Iff.rfl

/-- Every entry lies in the block written back after the sixteenth tile of its row block. -/
theorem covered (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 256 := N_0
  let t : Fin cfg0.N := ⟨16 * ((i 0).val / 512) + 15, by omega⟩
  have ht : t.val = 16 * ((i 0).val / 512) + 15 := rfl
  obtain ⟨-, -, -, -, -, -, -, -, e0, e1⟩ := Blocks.idx_facts t
  refine ⟨t, (flush0_4 t).mpr (by omega), ?_⟩
  rw [mem_block]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 2048 ≤ (i 1).val ∧ (i 1).val < win0_4.index t (1 : Fin 2) * 2048 + 2048
    rw [e1]; omega

/-- The call's result array after the run. -/
theorem final_rows (c : Dev nD) : (dats m 0 c).arrAt 4 cfg0.N = rows m c :=
  (dats m 0 c).arrAt_eq_of_cover 4 (rows m c) (flushed_eq m c) covered

/-- The program's result after the trailing reshape. -/
theorem tail_eq (c : Dev nD) :
    Pipeline.afterTail₀ cfgs (dats m) 0 (V0 m) [hostOps1] c main_v6
      = shapeCast S4x2048x2048 (rows m c) shapeCasts_S8192x2048_S4x2048x2048 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = rows m c :=
    (Pipeline.withArrays_arr spec0 launch0.win.arr_inj c _ _ 4).trans (final_rows m c)
  rw [e]
  rfl

/-- Reshaped, entry `(b, s, d)` is row `2048·b + s`, column `d`; and that row of the flattened input is row `(b, s)`
    of the batch: the result is the perceptron function of the program's four arguments. -/
theorem result_eq (c : Dev nD) :
    shapeCast S4x2048x2048 (rows m c) shapeCasts_S8192x2048_S4x2048x2048
      = mlp (m ((c : Thread nD τ).loc main_arg0)) (m ((c : Thread nD τ).loc main_arg1))
          (m ((c : Thread nD τ).loc main_arg2)) (m ((c : Thread nD τ).loc main_arg3)) := by
  funext i
  obtain ⟨b, s, d, rfl⟩ : ∃ (b : Fin 4) (s : Fin 2048) (d : Fin 2048), i = ix3 b s d := ⟨i 0, i 1, i 2, eq_ix3 i⟩
  have hb : b.val < 4 := b.isLt
  have hs : s.val < 2048 := s.isLt
  let r : Fin 8192 := ⟨2048 * b.val + s.val, by omega⟩
  have hcast : shapeCast S4x2048x2048 (rows m c) shapeCasts_S8192x2048_S4x2048x2048 (ix3 b s d) = rows m c (ix2 r d) := by
    refine shapeCast_apply _ _ _ _ ?_
    show ((⟨2, ![8192, 2048]⟩ : Shape).rowMajor (ix2 r d)).val = ((⟨3, ![4, 2048, 2048]⟩ : Shape).rowMajor (ix3 b s d)).val
    rw [Shape.rowMajor_val_three, Shape.rowMajor_val_two]
    show (2048 * b.val + s.val) * 2048 + d.val = (b.val * 2048 + s.val) * 2048 + d.val
    ring
  rw [hcast]
  show rowOut (fun k => X m c (ix2 r k)) (WG m c) (WU m c) (WD m c) d
    = rowOut (fun k => m ((c : Thread nD τ).loc main_arg0) (ix3 b s k)) (m ((c : Thread nD τ).loc main_arg1))
        (m ((c : Thread nD τ).loc main_arg2)) (m ((c : Thread nD τ).loc main_arg3)) d
  have hx : (fun k => X m c (ix2 r k)) = fun k => m ((c : Thread nD τ).loc main_arg0) (ix3 b s k) :=
    funext fun k => Blocks.x_entry m c r k b s rfl
  have hg : WG m c = m ((c : Thread nD τ).loc main_arg1) := funext fun j => Blocks.wg_entry m c j
  have hu : WU m c = m ((c : Thread nD τ).loc main_arg2) := funext fun j => Blocks.wu_entry m c j
  have hd : WD m c = m ((c : Thread nD τ).loc main_arg3) := funext fun j => Blocks.wd_entry m c j
  rw [hx, hg, hu, hd]

/-- The run, read: the result at the perceptron function of the arguments, the arguments unchanged. -/
theorem run : θ_run defs (onTc (τ := τ) (main (F := Ideal))) ⟨m, fun _ => 0, ρ⟩ fun r => ∀ c : Dev nD,
      r.2.mem ((c.tc : Thread nD τ).loc main_v6)
        = mlp (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans ((tail_eq m c).trans (result_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Result

end
-- ==== Proof.Reference.lean ====
/-
  The reference program read at an index: both projections are sums over the 2048 input features, the SiLU call
  multiplies the gate by `1 / (1 + e^(-gate))` — which over the extended reals is the logistic function by definition —,
  and the last einsum sums the 8192 hidden units' contributions. So its result is the perceptron function.
-/
import proofs.«121263_j5214090297425_1_alg».proof.Proof.Gen.ReferenceIdeal.Read
import proofs.«121263_j5214090297425_1_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Gen

/-- Reading the gate projection at hidden unit `h` of row `(b, s)`: the input is read at `(b, s, k)`. -/
theorem lidx_v0_v4 (i : S4x2048x2048.Idx) (h : Fin 8192) (k : Fin 2048) :
    Read.lidx_main_v0 (Read.lidx_main_v4 i h) k = ix3 (i 0) (i 1) k := by
  funext a
  match a with
  | ⟨0, _⟩ => rfl
  | ⟨1, _⟩ => rfl
  | ⟨2, _⟩ => rfl

/-- … and the gate matrix at `(h, k)`. -/
theorem ridx_v0_v4 (i : S4x2048x2048.Idx) (h : Fin 8192) (k : Fin 2048) :
    Read.ridx_main_v0 (Read.lidx_main_v4 i h) k = ix2 h k := by
  funext a
  match a with
  | ⟨0, _⟩ => rfl
  | ⟨1, _⟩ => rfl

/-- The up projection at hidden unit `h` of row `(b, s)` reads the input at `(b, s, k)` too. -/
theorem lidx_v1_v4 (i : S4x2048x2048.Idx) (h : Fin 8192) (k : Fin 2048) :
    Read.lidx_main_v1 (Read.lidx_main_v4 i h) k = ix3 (i 0) (i 1) k := by
  funext a
  match a with
  | ⟨0, _⟩ => rfl
  | ⟨1, _⟩ => rfl
  | ⟨2, _⟩ => rfl

/-- … and the up matrix at `(h, k)`. -/
theorem ridx_v1_v4 (i : S4x2048x2048.Idx) (h : Fin 8192) (k : Fin 2048) :
    Read.ridx_main_v1 (Read.lidx_main_v4 i h) k = ix2 h k := by
  funext a
  match a with
  | ⟨0, _⟩ => rfl
  | ⟨1, _⟩ => rfl

/-- The last sum, at output entry `(b, s, d)` and hidden unit `h`, reads the output matrix at `(d, h)`. -/
theorem ridx_v4 (i : S4x2048x2048.Idx) (h : Fin 8192) : Read.ridx_main_v4 i h = ix2 (i 2) h := by
  funext a
  match a with
  | ⟨0, _⟩ => rfl
  | ⟨1, _⟩ => rfl

/-- The reference's result stage is the perceptron function of its four arguments. -/
theorem ref_eq_mlp (x0 : FVec Ideal S4x2048x2048 .f32) (x1 x2 : FVec Ideal S8192x2048 .f32)
    (x3 : FVec Ideal S2048x8192 .f32) :
    Cert.ReferenceIdeal.Read.val_main_v4 (F := Ideal) x0 x1 x2 x3 = Cert.GatedMlp.mlp x0 x1 x2 x3 := by
  funext i
  -- Entry `(b, s, d)` of the last einsum is the sum over the 8192 hidden units `h` of the gated product at
  -- `(b, s, h)` times the output matrix at `(d, h)`; the perceptron's row output is a sum over the same `h`.
  rw [Read.val_main_v4_apply]
  unfold Cert.GatedMlp.mlp Cert.GatedMlp.rowOut
  refine Finset.sum_congr rfl fun h _ => ?_
  -- One term: the gated product is `(g · (1 / (1 + e^(-g)))) · u`, with `g` and `u` the two projections at `(b, s, h)`,
  -- each a sum over the 2048 input features.
  rw [Read.val_main_v3_apply, Read.val_main_v2_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    Read.val_main_v0_apply, Read.val_main_v1_apply]
  -- Over the extended reals the operations are negation, the exponential, `+`, the quotient and `*`, the constant is
  -- one, and the operands are read at `(b, s, k)`, `(h, k)` and `(d, h)`.
  simp only [lidx_v0_v4, ridx_v0_v4, lidx_v1_v4, ridx_v1_v4, ridx_v4, Ideal.mulf_def, Ideal.hostDivf_def,
    Ideal.addf_def, Ideal.hostUnary_exp_def, Ideal.hostNegf_def, Ideal.negf_def, Ideal.ofBits_def,
    Ideal.ofBits_one_f32]
  -- The logistic function is `1 / (1 + e^(-g))` by definition, and the factors stand in the same order on both sides.
  unfold Cert.GatedMlp.contrib Cert.GatedMlp.gated Ideal.logistic
  rfl

end Cert.ReferenceIdeal.RefValue

end
-- ==== Proof.lean ====
/-
  A gated two-layer perceptron (SwiGLU), tiled over the hidden axis, against its einsum form.

  For every row `(b, s)` of the batch and output feature `d`, both programs compute over the extended reals
      ∑ₕ ( g · σ(g) · u ) · Wd[d, h],   g = ∑ₖ x[b, s, k] · Wg[h, k],   u = ∑ₖ x[b, s, k] · Wu[h, k],   σ(g) = 1 / (1 + e^(-g)),
  the sum over all 8192 hidden units `h`.
  The reference does it with three contractions and spells the logistic function out as negate, exponential, add
  and divide, which over the extended reals is the logistic function by definition. The kernel flattens the batch to
  8192 rows, walks a 16 × 16 grid (row block, hidden tile), and for each row block adds up sixteen partial products of
  512 hidden units each in an accumulator that it zeroes at the first tile and copies out after the last; the
  conversions to a narrower float format are the identity over the extended reals. The two results differ only in how
  the sum over `h` is grouped, and addition of extended reals is commutative and associative, so they are equal for all
  inputs: the precondition is not used by the value claim.

  The frames of the kernel and of its idealization are the generated ones; the reference's frame is its generated run
  with the result dropped; the idealization rewrote nothing.
-/
import proofs.«121263_j5214090297425_1_alg».proof.Defs
import proofs.«121263_j5214090297425_1_alg».proof.Proof.Gen.Kernel
import proofs.«121263_j5214090297425_1_alg».proof.Proof.Gen.Kernel.Skeleton
import proofs.«121263_j5214090297425_1_alg».proof.Proof.Gen.Kernel.Launch
import proofs.«121263_j5214090297425_1_alg».proof.Proof.Gen.Kernel.Points
import proofs.«121263_j5214090297425_1_alg».proof.Proof.Gen.Kernel.Frame
import proofs.«121263_j5214090297425_1_alg».proof.Proof.Gen.KernelIdeal
import proofs.«121263_j5214090297425_1_alg».proof.Proof.Gen.KernelIdeal.Skeleton
import proofs.«121263_j5214090297425_1_alg».proof.Proof.Gen.KernelIdeal.Launch
import proofs.«121263_j5214090297425_1_alg».proof.Proof.Gen.KernelIdeal.Points
import proofs.«121263_j5214090297425_1_alg».proof.Proof.Gen.KernelIdeal.Frame
import proofs.«121263_j5214090297425_1_alg».proof.Proof.Gen.ReferenceIdeal
import proofs.«121263_j5214090297425_1_alg».proof.Proof.Gen.ReferenceIdeal.Run
import proofs.«121263_j5214090297425_1_alg».proof.Proof.Gen.ReferenceIdeal.Read
import proofs.«121263_j5214090297425_1_alg».proof.Proof.Gen.Pre_finite_inputs
import proofs.«121263_j5214090297425_1_alg».proof.Proof.Result
import proofs.«121263_j5214090297425_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the perceptron function of the (agreeing) arguments in their result. -/
theorem algebraic : Cert.algebraic_KernelIdeal_ReferenceIdeal := by
  intro m ρ m' ρ' _ hagree
  refine ⟨fun c => Cert.GatedMlp.mlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.ref_eq_mlp,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
